-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x17 : Shape := ⟨2, ![8192, 17]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x17 : S_.BroadcastsInDim S8192x17 (![] : Fin 0 → Fin S8192x17.rank)
  reducesTo_S8192x17_S_d0_1 : S8192x17.ReducesTo [0, 1] S_

variable [Facts]

def fn {F : FTy → Type} [FloatOps F] (main_arg0 : FVec F S8192x8192 .f32) (main_arg1 : IVec S8192x17 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_c_0 : IVec S_ 32 := constantI S_ 32 0#32
  let main_v4 : IVec S8192x17 32 := broadcastInDim S8192x17 ![] bcast_S_S8192x17 main_c_0
  let main_v5 : IVec S8192x17 1 := cmpi .sge main_arg1 main_v4
  let main_c_1 : IVec S_ 32 := constantI S_ 32 8192#32
  let main_v6 : IVec S8192x17 32 := broadcastInDim S8192x17 ![] bcast_S_S8192x17 main_c_1
  let main_v7 : IVec S8192x17 1 := cmpi .slt main_arg1 main_v6
  let main_v8 : IVec S8192x17 1 := andi main_v5 main_v7
  let main_c_2 : IVec S_ 1 := constantI S_ 1 1#1
  let main_v9 : IVec S_ 1 := (fun x v => Host.reduce IntOp.andi x v reducesTo_S8192x17_S_d0_1 h_S_) main_v8 main_c_2
  let main_v10 : IVec S_ 1 := andi main_v3 main_v9
  main_v10
-- ==== Kernel.lean ====
abbrev S8192x8192 : Shape := ⟨2, ![8192, 8192]⟩
abbrev S8192x17 : Shape := ⟨2, ![8192, 17]⟩
abbrev S_ : Shape := ⟨0, ![]⟩
abbrev S8192x128 : Shape := ⟨2, ![8192, 128]⟩
abbrev S8192x1 : Shape := ⟨2, ![8192, 1]⟩
abbrev S512x128 : Shape := ⟨2, ![512, 128]⟩
abbrev S512x8192 : Shape := ⟨2, ![512, 8192]⟩
abbrev S512x1 : Shape := ⟨2, ![512, 1]⟩
abbrev S512x128x1 : Shape := ⟨3, ![512, 128, 1]⟩
abbrev S512 : Shape := ⟨1, ![512]⟩
abbrev S8192 : Shape := ⟨1, ![8192]⟩
abbrev S1 : Shape := ⟨1, ![1]⟩

abbrev nBuf : Space → Nat
  | .hbm => 33
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x17, .i32⟩
  | .hbm, ⟨2, _⟩ => ⟨S_, .i32⟩
  | .hbm, ⟨3, _⟩ => ⟨S8192x17, .i32⟩
  | .hbm, ⟨4, _⟩ => ⟨S8192x17, .i1⟩
  | .hbm, ⟨5, _⟩ => ⟨S_, .i32⟩
  | .hbm, ⟨6, _⟩ => ⟨S8192x17, .i32⟩
  | .hbm, ⟨7, _⟩ => ⟨S8192x17, .i1⟩
  | .hbm, ⟨8, _⟩ => ⟨S8192x17, .i1⟩
  | .hbm, ⟨9, _⟩ => ⟨S_, .i32⟩
  | .hbm, ⟨10, _⟩ => ⟨S8192x17, .i32⟩
  | .hbm, ⟨11, _⟩ => ⟨S8192x17, .i32⟩
  | .hbm, ⟨12, _⟩ => ⟨S_, .i32⟩
  | .hbm, ⟨13, _⟩ => ⟨S8192x17, .i32⟩
  | .hbm, ⟨14, _⟩ => ⟨S8192x17, .i32⟩
  | .hbm, ⟨15, _⟩ => ⟨S_, .i32⟩
  | .hbm, ⟨16, _⟩ => ⟨S_, .i32⟩
  | .hbm, ⟨17, _⟩ => ⟨S8192x128, .i32⟩
  | .hbm, ⟨18, _⟩ => ⟨S8192x1, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S8192, .f32⟩
  | .hbm, ⟨32, _⟩ => ⟨S8192, .f32⟩
  | .local _ .vmem, ⟨0, _⟩ => ⟨S512x128, .i32⟩
  | .local _ .vmem, ⟨1, _⟩ => ⟨S512x128, .i32⟩
  | .local _ .vmem, ⟨2, _⟩ => ⟨S512x8192, .f32⟩
  | .local _ .vmem, ⟨3, _⟩ => ⟨S512x8192, .f32⟩
  | .local _ .vmem, ⟨4, _⟩ => ⟨S512x1, .f32⟩
  | .local _ .vmem, ⟨5, _⟩ => ⟨S512x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_call2_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v7 : BitVec 32 := Scalar.addi c0_i32 c64_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v12 : BitVec 32 := Scalar.muli arg4 c128_i32
  v12
def k0_off1 (k0_t1 : Fin k0_t1_loop.trips) : Fin 2 → Nat :=
  let c0_5 : Index := 0#32
  let c0_i32 : BitVec 32 := 0#32
  let c1_i32 : BitVec 32 := 1#32
  let arg4 : BitVec 32 := Scf.iv c0_i32 c1_i32 k0_t1
  let c128_i32 : BitVec 32 := 128#32
  let v12 : BitVec 32 := Scalar.muli arg4 c128_i32
  let v13 : BitVec 32 := v12
  let v14 : Index := Scalar.indexCast v13
  ![0, v14.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8192x17 : S_.BroadcastsInDim S8192x17 (![] : Fin 0 → Fin S8192x17.rank)
  pads_S8192x17_S8192x128_000_01110 : S8192x17.Pads (![0, 0] : Fin 2 → Nat) ![0, 111] ![0, 0] S8192x128
  h_S_ : 0 < S_.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S512x128_S512x128x1 : S512x128.ShapeCasts S512x128x1
  shapeCasts_S512x128x1_S512x128 : S512x128x1.ShapeCasts S512x128
  reduces_S512x128_S512 : S512x128.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S8192x1_S8192 : S8192x1.ShapeCasts S8192
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S512x128.size a ≤ S512x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .i32 = 32 ∨ (Rect.block (s := S8192x128) S512x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S8192x8192.size a
  hwx0_1 : ∀ i : grid0.Coords, EltTy.bits .f32 = 32 ∨ (Rect.block (s := S8192x8192) S512x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_v9) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x17 : Shape := ⟨2, ![8192, 17]⟩
abbrev S_ : Shape := ⟨0, ![]⟩
abbrev S8192x17x1 : Shape := ⟨3, ![8192, 17, 1]⟩
abbrev S1 : Shape := ⟨1, ![1]⟩
abbrev S1x1x1 : Shape := ⟨3, ![1, 1, 1]⟩
abbrev S8192 : Shape := ⟨1, ![8192]⟩

abbrev nBuf : Space → Nat
  | .hbm => 39
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x17, .i32⟩
  | .hbm, ⟨2, _⟩ => ⟨S_, .i32⟩
  | .hbm, ⟨3, _⟩ => ⟨S8192x17, .i32⟩
  | .hbm, ⟨4, _⟩ => ⟨S8192x17, .i1⟩
  | .hbm, ⟨5, _⟩ => ⟨S_, .i32⟩
  | .hbm, ⟨6, _⟩ => ⟨S8192x17, .i32⟩
  | .hbm, ⟨7, _⟩ => ⟨S8192x17, .i32⟩
  | .hbm, ⟨8, _⟩ => ⟨S8192x17, .i32⟩
  | .hbm, ⟨9, _⟩ => ⟨S8192x17x1, .i32⟩
  | .hbm, ⟨10, _⟩ => ⟨S1, .i32⟩
  | .hbm, ⟨11, _⟩ => ⟨S_, .i32⟩
  | .hbm, ⟨12, _⟩ => ⟨S8192x17x1, .i32⟩
  | .hbm, ⟨13, _⟩ => ⟨S8192x17x1, .i1⟩
  | .hbm, ⟨14, _⟩ => ⟨S1x1x1, .i32⟩
  | .hbm, ⟨15, _⟩ => ⟨S8192x17x1, .i32⟩
  | .hbm, ⟨16, _⟩ => ⟨S8192x17x1, .i1⟩
  | .hbm, ⟨17, _⟩ => ⟨S8192x17x1, .i1⟩
  | .hbm, ⟨18, _⟩ => ⟨S_, .i1⟩
  | .hbm, ⟨19, _⟩ => ⟨S8192x17, .i1⟩
  | .hbm, ⟨20, _⟩ => ⟨S8192x17, .f32⟩
  | .hbm, ⟨21, _⟩ => ⟨S_, .f32⟩
  | .hbm, ⟨22, _⟩ => ⟨S8192x17, .f32⟩
  | .hbm, ⟨23, _⟩ => ⟨S8192x17, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S8192, .f32⟩
  | .hbm, ⟨38, _⟩ => ⟨S8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_cst_0 : Ref sig .tc := ⟨.hbm, 26, rfl⟩
abbrev main_v2 : Ref sig .tc := ⟨.hbm, 27, rfl⟩
abbrev main_cst_1 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_2 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  bcast_S_S8192x17 : S_.BroadcastsInDim S8192x17 (![] : Fin 0 → Fin S8192x17.rank)
  shapeCasts_S8192x17_S8192x17x1 : S8192x17.ShapeCasts S8192x17x1
  bcast_S_S8192x17x1 : S_.BroadcastsInDim S8192x17x1 (![] : Fin 0 → Fin S8192x17x1.rank)
  bcast_S1_S1x1x1_2 : S1.BroadcastsInDim S1x1x1 (![2] : Fin 1 → Fin S1x1x1.rank)
  bcast_S1x1x1_S8192x17x1_0_1_2 : S1x1x1.BroadcastsInDim S8192x17x1 (![0, 1, 2] : Fin 3 → Fin S8192x17x1.rank)
  reducesTo_S8192x17x1_S8192x17_d2 : S8192x17x1.ReducesTo [2] S8192x17
  h_S_ : 0 < S_.numel
  reducesTo_S8192x17_S8192_d1 : S8192x17.ReducesTo [1] S8192
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  gather_S8192x8192_S8192x17x1_S8192x17_n_1_0_0_1_2_11_wf : GatherDims.WF S8192x8192 S8192x17x1 S8192x17 [] [1] [0] [1] [0] 2 ![1, 1]

variable [Facts₀]

def gather_S8192x8192_S8192x17x1_S8192x17_n_1_0_0_1_2_11 : GatherDims S8192x8192 S8192x17x1 S8192x17 where
  offsetDims := []
  collapsedSliceDims := [1]
  operandBatchingDims := [0]
  startIndicesBatchingDims := [0]
  startIndexMap := [1]
  indexVectorDim := 2
  sliceSizes := ![1, 1]
  wf := gather_S8192x8192_S8192x17x1_S8192x17_n_1_0_0_1_2_11_wf

class Facts : Prop extends Facts₀ where

variable [Facts]
-- ==== Proof.Spec.lean ====
/-
  The mathematics of the gather-and-sum layer, stated once over literal shapes.

  Row `r` of the result is the sum, over the 17 neighbour slots `k`, of the data entry `data[r, idx[r,k]]`;
  a slot whose index word does not name a column (it is not in `[0, 8192)` read unsigned) contributes
  nothing. The second result is the softmax of that vector, written here as the one function `softmaxTail`
  both programs apply to it.
-/
import Idealize.ShloMosaic.PureOps.Ideal
import Idealize.ShloMosaic.PureOps.Ideal.Laws
import Idealize.ShloMosaic.Lib.ValueIdx

noncomputable section

namespace Cert.GatherSum

open Idealize.ShloMosaic Idealize.ShloMosaic.ValueIdx

abbrev Sdata : Shape := ⟨2, ![8192, 8192]⟩
abbrev Sidx : Shape := ⟨2, ![8192, 17]⟩
abbrev Srows : Shape := ⟨1, ![8192]⟩
abbrev Sone : Shape := ⟨1, ![1]⟩
abbrev Sscalar : Shape := ⟨0, ![]⟩

/-- The column an index word names: its unsigned value, reduced so that the function is total (an
    in-range word is its own reduction). -/
def col (w : BitVec 32) : Fin 8192 := ⟨w.toNat % 8192, Nat.mod_lt _ (by decide)⟩

/-- One neighbour slot's contribution to row `r`: the entry at the named column when the word names one,
    nothing otherwise. -/
def term (row : Fin 8192 → EReal) (w : BitVec 32) : EReal :=
  if w.toNat < 8192 then row (col w) else 0

/-- The neighbour sum: row `r` is the sum of its 17 slots' contributions. -/
def nsum (data : Sdata.Idx → EReal) (idx : Sidx.Idx → BitVec 32) : Srows.Idx → EReal :=
  fun j => ∑ k : Fin 17, term (fun q => data (ix2 (j 0) q)) (idx (ix2 (j 0) k))

/-- The softmax both programs apply to the neighbour sums: subtract the maximum (taken against −∞, twice, as
    both programs spell it), exponentiate, divide by the sum of the exponentials. -/
def softmaxTail (hred : Srows.ReducesTo [0] Sscalar) (h0 : 0 < Sscalar.numel)
    (hb1 : Sscalar.BroadcastsInDim Sone (![] : Fin 0 → Fin Sone.rank))
    (hb2 : Sone.BroadcastsInDim Srows (![0] : Fin 1 → Fin Srows.rank))
    (a : FVec Ideal Srows .f32) : FVec Ideal Srows .f32 :=
  let mx : FVec Ideal Sscalar .f32 :=
    maximumf (constant (F := Ideal) Sscalar .f32 0xFF800000#32)
      (Host.reduce FloatOps.maximumf a (constant (F := Ideal) Sscalar .f32 0xFF800000#32) hred h0)
  let e : FVec Ideal Srows .f32 :=
    Host.exp (subf a (broadcastInDim Srows ![0] hb2 (broadcastInDim Sone ![] hb1 mx)))
  Host.divf e (broadcastInDim Srows ![0] hb2 (broadcastInDim Sone ![] hb1
    (Host.reduceAdd e (constant (F := Ideal) Sscalar .f32 0x00000000#32) hred h0)))

end Cert.GatherSum

end
-- ==== Proof.Words.lean ====
/-
  Word arithmetic of the two-level lane gather.

  An index word `w` is split into a block id `w >> 7` (arithmetic shift) and a lane offset `w & 127`. Read
  unsigned, the offset is `w mod 128` and is never negative as a signed word; the block id equals a trip number
  `k < 64` exactly when `128 k ≤ w < 128 (k+1)` unsigned — a word with its sign bit set shifts to a word with
  its high bits set, which is no small trip number, and a word of 8192 or more has a block id of 64 or more.
-/
import Idealize.ShloMosaic.PureOps
import Idealize.ShloMosaic.Lib.Scf
import Idealize.ShloMosaic.Lib.Scf.Counter
import Idealize.ShloMosaic.Lib.StableHlo.Predicate

namespace Cert.GatherSum.Words

open Idealize.ShloMosaic

/-- The lane offset read unsigned is the word modulo 128. -/
theorem lo_toNat (w : BitVec 32) : (IntOp.andi w 127#32).toNat = w.toNat % 128 := by
  show (w &&& 127#32).toNat = _
  rw [BitVec.toNat_and]
  exact Nat.and_two_pow_sub_one_eq_mod w.toNat 7

/-- The lane offset is not negative as a signed word: the kernel's wrap of a negative offset never applies. -/
theorem lo_not_neg (w : BitVec 32) : IntOp.cmpi .slt (IntOp.andi w 127#32) 0#32 = 0#1 := by
  have h := lo_toNat w
  have hlt : (IntOp.andi w 127#32).toNat < 128 := by rw [h]; exact Nat.mod_lt _ (by decide)
  have hx : (IntOp.andi w 127#32).toInt = ((IntOp.andi w 127#32).toNat : Int) := by
    rw [BitVec.toInt_eq_toNat_cond]; split <;> omega
  have hs : (IntOp.andi w 127#32).slt 0#32 = false := by
    unfold BitVec.slt; rw [hx]; exact decide_eq_false (by simp)
  show BitVec.ofBool ((IntOp.andi w 127#32).slt 0#32) = 0#1
  rw [hs]; rfl

/-- The trip's induction variable is the trip number as a word. -/
theorem iv_eq (k : ℕ) : Scf.iv 0#32 1#32 k = BitVec.ofNat 32 k := by
  unfold Scf.iv; simp

/-- The block id equals trip `k` exactly when the word lies in the trip's 128 columns. -/
theorem hi_eq_iff (w : BitVec 32) (k : ℕ) (hk : k < 64) :
    IntOp.cmpi .eq (IntOp.shrsi .vector w 7#32) (Scf.iv 0#32 1#32 k) = 1#1 ↔ w.toNat / 128 = k := by
  rw [iv_eq]
  have hs : IntOp.shrsi .vector w 7#32 = w.sshiftRight 7 := by
    unfold IntOp.shrsi; rw [if_pos (by decide)]; rfl
  rw [hs]
  have hti : (w.sshiftRight 7).toInt = w.toInt / 128 := by
    rw [BitVec.toInt_sshiftRight, Int.shiftRight_eq_div_pow]; rfl
  have hk' : (BitVec.ofNat 32 k).toInt = k := by
    rw [BitVec.toInt_eq_toNat_cond, BitVec.toNat_ofNat]
    have : k % 2 ^ 32 = k := Nat.mod_eq_of_lt (by omega)
    rw [this]; split <;> omega
  have hw := BitVec.toInt_eq_toNat_cond w
  have hlt := w.isLt
  rw [StableHlo.Predicate.cmpi_eq_iff]
  constructor
  · intro h1
    have h2 := congrArg BitVec.toInt h1
    rw [hti, hk'] at h2
    split at hw <;> omega
  · intro h
    refine BitVec.eq_of_toInt_eq ?_
    rw [hti, hk']; split at hw <;> omega

/-- The host's validity test of an index word — not negative and below 8192, both signed — holds exactly when the
    word is below 8192 read unsigned. -/
theorem valid_iff (w : BitVec 32) :
    IntOp.andi (IntOp.cmpi .sge w 0#32) (IntOp.cmpi .slt w 8192#32) = 1#1 ↔ w.toNat < 8192 := by
  have hw := BitVec.toInt_eq_toNat_cond w
  have hlt := w.isLt
  have h0 : (0#32 : BitVec 32).toInt = 0 := by decide
  have h8 : (8192#32 : BitVec 32).toInt = 8192 := by decide
  show BitVec.ofBool ((0#32 : BitVec 32).sle w) &&& BitVec.ofBool (w.slt 8192#32) = 1#1 ↔ _
  unfold BitVec.sle BitVec.slt
  rw [h0, h8]
  by_cases ha : (0 : Int) ≤ w.toInt <;> by_cases hb : w.toInt < 8192
  · simp only [ha, hb, decide_true]
    constructor
    · intro _; split at hw <;> omega
    · intro _; decide
  · simp only [ha, hb, decide_true, decide_false]
    constructor
    · intro h; exact absurd h (by decide)
    · intro h; exfalso; split at hw <;> omega
  · simp only [ha, hb, decide_true, decide_false]
    constructor
    · intro h; exact absurd h (by decide)
    · intro h; exfalso; split at hw <;> omega
  · simp only [ha, hb, decide_false]
    constructor
    · intro h; exact absurd h (by decide)
    · intro h; exfalso; split at hw <;> omega

/-- The padding word −1 is not below 8192 read unsigned. -/
theorem neg_one_toNat : ¬ (4294967295#32 : BitVec 32).toNat < 8192 := by decide

end Cert.GatherSum.Words
-- ==== Proof.Lane.lean ====
/-
  The kernel body's arithmetic read at one lane.

  One trip `k` of the column-block loop adds, at lane `(p, l)`, the entry of the trip's 128-column block at
  lane offset `w mod 128` when the lane's index word `w` has block id `k` (that is `w / 128 = k` unsigned), and
  nothing otherwise: the lane's own gather along the 128 lanes followed by the mask on the block id. After the loop
  the row's 128 lanes are summed.
-/
import proofs.«406688_j89146341196441_3_alg».proof.Proof.Gen.KernelIdeal.Skeleton
import proofs.«406688_j89146341196441_3_alg».proof.Proof.Spec
import proofs.«406688_j89146341196441_3_alg».proof.Proof.Words
import Idealize.ShloMosaic.Lib.ValueIdx
import Idealize.ShloMosaic.Lib.Pipeline.Value
import Idealize.ShloMosaic.PureOps.Ideal.Laws

noncomputable section

namespace Cert.GatherSum.Lane

open Idealize.ShloMosaic Idealize.ShloMosaic.ValueIdx Cert.KernelIdeal Cert.KernelIdeal.Gen Cert.GatherSum

/-- A gather along the 128 lanes reads, at lane `(p, l)`, row `p` at the lane the index word names modulo 128. -/
theorem dynamicGather_lane {α : Type} (x : S512x128.Idx → α) (idx : IVec S512x128 32) (p : Fin 512) (l : Fin 128) :
    dynamicGather (s := S512x128) 1 x idx (ix2 p l)
      = x (ix2 p ⟨(idx (ix2 p l)).toNat % 128, Nat.mod_lt _ (by decide)⟩) := by
  unfold dynamicGather
  refine congrArg x (funext fun b => ?_)
  match b with
  | ⟨0, _⟩ => rfl
  | ⟨1, _⟩ => rfl

/-- One trip at one lane: the carried value plus the block's entry at the lane offset when the word's block id is
    the trip, plus nothing otherwise. -/
theorem pay2_apply (v0 : Vec Ideal S512x128 .i32) (k : Fin k0_t1_loop.trips) (hk : k.val < 64)
    (acc v15 : FVec Ideal S512x128 .f32) (p : Fin 512) (l : Fin 128) :
    k0_pay2 (F := Ideal) v0 k acc v15 (ix2 p l)
      = acc (ix2 p l) + (if (v0 (ix2 p l)).toNat / 128 = k.val then
          v15 (ix2 p ⟨(v0 (ix2 p l)).toNat % 128, Nat.mod_lt _ (by decide)⟩) else 0) := by
  unfold k0_pay2
  simp only [shapeCast_self, shapeCast_shapeCast]
  rw [addf_apply, select_apply, dynamicGather_lane]
  refine congrArg (acc (ix2 p l) + ·) ?_
  have hlo : Scalar.select (IntOp.cmpi .slt (IntOp.andi (v0 (ix2 p l)) 127#32) 0#32)
      (IntOp.addi (IntOp.andi (v0 (ix2 p l)) 127#32) 128#32) (IntOp.andi (v0 (ix2 p l)) 127#32)
      = IntOp.andi (v0 (ix2 p l)) 127#32 := by
    rw [Words.lo_not_neg]; exact select_zero _ _
  by_cases h : (v0 (ix2 p l)).toNat / 128 = k.val
  · rw [if_pos h]
    have hc : IntOp.cmpi .eq (IntOp.shrsi .vector (v0 (ix2 p l)) 7#32) (Scf.iv 0#32 1#32 k.val) = 1#1 :=
      (Words.hi_eq_iff _ _ hk).2 h
    show Scalar.select (IntOp.cmpi .eq (IntOp.shrsi .vector (v0 (ix2 p l)) 7#32) (Scf.iv 0#32 1#32 k.val)) _ _ = _
    rw [hc, select_one]
    refine congrArg v15 (congrArg (ix2 p) (Fin.ext ?_))
    show (Scalar.select (IntOp.cmpi .slt (IntOp.andi (v0 (ix2 p l)) 127#32) 0#32)
      (IntOp.addi (IntOp.andi (v0 (ix2 p l)) 127#32) 128#32) (IntOp.andi (v0 (ix2 p l)) 127#32)).toNat % 128 = _
    rw [hlo, Words.lo_toNat, Nat.mod_mod]
  · rw [if_neg h]
    have hc : IntOp.cmpi .eq (IntOp.shrsi .vector (v0 (ix2 p l)) 7#32) (Scf.iv 0#32 1#32 k.val) = 0#1 :=
      eq_zero_of_ne_one (fun hc => h ((Words.hi_eq_iff _ _ hk).1 hc))
    show Scalar.select (IntOp.cmpi .eq (IntOp.shrsi .vector (v0 (ix2 p l)) 7#32) (Scf.iv 0#32 1#32 k.val)) _ _ = _
    rw [hc, select_zero]
    show Ideal.ofBits .f32 0x00000000#32 = 0
    exact Ideal.ofBits_zero_f32

/-- The carried value at loop entry is zero at every lane. -/
theorem pay1_apply (j : S512x128.Idx) : k0_pay1 (F := Ideal) j = 0 := by
  unfold k0_pay1
  show Ideal.ofBits .f32 0x00000000#32 = 0
  exact Ideal.ofBits_zero_f32

/-- The stored column: row `p` is the sum of the carried value's 128 lanes. -/
theorem pay3_apply (v8 : FVec Ideal S512x128 .f32) (p : Fin 512) :
    k0_pay3 (F := Ideal) v8 (ix2 p (0 : Fin 1)) = ∑ l : Fin 128, v8 (ix2 p l) := by
  unfold k0_pay3
  rw [shapeCast_apply _ _ (ix2 p (0 : Fin 1)) (ix1 p) (by
    rw [Shape.rowMajor_val_one, Shape.rowMajor_val_two]; simp)]
  refine (Ideal.multiReduction_add_single v8 0x00000000#32 reduces_S512x128_S512 (.inl rfl) rfl (ix1 p)).trans ?_
  refine Finset.sum_congr rfl fun l _ => congrArg v8 (funext fun a => ?_)
  match a with
  | ⟨0, _⟩ => rfl
  | ⟨1, _⟩ => rfl

end Cert.GatherSum.Lane

end
-- ==== Proof.Body.lean ====
/-
  The kernel body's run read as values.

  The run of the column-block loop carries, before trip `k`, at lane `(p, l)` with index word `w`: the data
  block's entry `x1[p, w]` when `w < 128 k` (the word's block has been visited), and zero otherwise. A trip
  whose number is the word's block id adds that entry once, read from the trip's 128 columns at offset
  `w mod 128` (`128 k + w mod 128 = w`); every other trip adds nothing. After 64 trips every word below 8192 has
  been met, and the stored column is, row by row, the sum over the 128 lanes of those entries.
-/
import proofs.«406688_j89146341196441_3_alg».proof.Proof.Gen.KernelIdeal.Frame
import proofs.«406688_j89146341196441_3_alg».proof.Proof.Lane

set_option maxRecDepth 16384

noncomputable section

namespace Cert.GatherSum.Body

open Idealize.ShloMosaic Idealize.ShloMosaic.ValueIdx Idealize.ShloMosaic.TcCoe Idealize.SL.Sem
open Cert.KernelIdeal Cert.KernelIdeal.Gen Cert.GatherSum

variable (c : Dev nD) (i : grid0.Coords) (arg1 : Memref sig .tc .vmem S512x128 .i32) (harg1 : arg1.IsWhole)
  (arg2 : Memref sig .tc .vmem S512x8192 .f32) (harg2 : arg2.IsWhole) (arg3 : Memref sig .tc .vmem S512x1 .f32) (harg3 : arg3.IsWhole)

theorem trips_eq : k0_t1_loop.trips = 64 := by decide

/-- What one trip yields: the trip's arithmetic on the carried value and the trip's 128 columns of the data block. -/
theorem tripR_eq (v0 : Vec Ideal S512x128 .i32) (X : BufTy.Contents (Elt Ideal) arg2.view.ty)
    (k : Fin k0_t1_loop.trips) (acc : FVec Ideal S512x128 .f32) :
    tripR_k0_t1 (F := Ideal) Variants.none c none i arg1 harg1 arg2 harg2 arg3 harg3 v0 X k acc
      = k0_pay2 v0 k acc (View.readAt (Elt Ideal) arg2.view
          (Rect.unit (s := S512x8192) (k0_off1 k) S512x128.size (k0_off1_inb k)).toLoadRect X) := by
  unfold tripR_k0_t1 trip_k0_t1
  rfl

/-- Trip `k`'s columns of the data block: lane `q` of row `p` is the block's entry at column `128 k + q`. -/
theorem blk_read (x1 : Vec Ideal S512x8192 .f32) (k : Fin k0_t1_loop.trips) (hk : k.val < 64) (p : Fin 512) (q : Fin 128) :
    View.readAt (Elt Ideal) arg2.view (Rect.unit (s := S512x8192) (k0_off1 k) S512x128.size (k0_off1_inb k)).toLoadRect
        (harg2.unread x1) (ix2 p q)
      = x1 (ix2 p ⟨128 * k.val + q.val, by have := q.isLt; omega⟩) := by
  rw [View.readAt_apply, harg2.read_unread]
  refine congrArg x1 (funext fun a => Fin.ext ?_)
  match a with
  | ⟨0, _⟩ =>
    show (k0_off1 k) 0 + 1 * p.val = p.val
    rw [k0_off1_eq]; simp
  | ⟨1, _⟩ =>
    show (k0_off1 k) 1 + 1 * q.val = 128 * k.val + q.val
    rw [k0_off1_eq]; simp

/-- The carried value before trip `k`, at a lane: the entry the lane's word names once its block has been visited. -/
theorem st_apply (x0 : Vec Ideal S512x128 .i32) (x1 : Vec Ideal S512x8192 .f32) :
    ∀ (k : ℕ), k ≤ 64 → ∀ (p : Fin 512) (l : Fin 128),
      st_k0_t1 (F := Ideal) Variants.none c none i arg1 harg1 arg2 harg2 arg3 harg3 x0 (harg2.unread x1) k0_pay1 k (ix2 p l)
        = if (x0 (ix2 p l)).toNat < 128 * k then x1 (ix2 p (col (x0 (ix2 p l)))) else 0
  | 0, _, p, l => by
    show k0_pay1 (F := Ideal) (ix2 p l) = _
    rw [Lane.pay1_apply, if_neg (by omega)]
  | k + 1, hk, p, l => by
    have hkt : k < k0_t1_loop.trips := by rw [trips_eq]; omega
    have e := st_k0_t1_succ (F := Ideal) Variants.none c none i arg1 harg1 arg2 harg2 arg3 harg3 x0 (harg2.unread x1) k0_pay1 ⟨k, hkt⟩
    rw [show k + 1 = (⟨k, hkt⟩ : Fin k0_t1_loop.trips).val + 1 from rfl, e, tripR_eq,
      Lane.pay2_apply _ _ (by show k < 64; omega), st_apply x0 x1 k (by omega) p l,
      blk_read arg2 harg2 x1 ⟨k, hkt⟩ (by show k < 64; omega)]
    show (if (x0 (ix2 p l)).toNat < 128 * k then x1 (ix2 p (col (x0 (ix2 p l)))) else 0)
        + (if (x0 (ix2 p l)).toNat / 128 = k then x1 (ix2 p ⟨128 * k + (x0 (ix2 p l)).toNat % 128, _⟩) else 0) = _
    have hv : ((⟨k, hkt⟩ : Fin k0_t1_loop.trips) : ℕ) = k := rfl
    by_cases h : (x0 (ix2 p l)).toNat / 128 = k
    · rw [if_pos h, if_neg (by omega), zero_add, if_pos (by omega)]
      refine congrArg x1 (congrArg (ix2 p) (Fin.ext ?_))
      show 128 * k + (x0 (ix2 p l)).toNat % 128 = (x0 (ix2 p l)).toNat % 8192
      omega
    · rw [if_neg h, add_zero]
      by_cases h2 : (x0 (ix2 p l)).toNat < 128 * k
      · rw [if_pos h2, if_pos (by omega)]
      · rw [if_neg h2, if_neg (by omega)]

/-- What the body leaves in the output block: row `p` is the sum over the 128 lanes of the contributions of the
    index block's words to the data block's row `p`. -/
theorem out0_apply (x0 : Vec Ideal S512x128 .i32) (x1 : Vec Ideal S512x8192 .f32) (p : Fin 512) :
    out0_A_2 (F := Ideal) c i arg1 harg1 arg2 harg2 arg3 harg3 x0 x1 (ix2 p (0 : Fin 1))
      = ∑ l : Fin 128, term (fun q => x1 (ix2 p q)) (x0 (ix2 p l)) := by
  have hz : (![0, 0] : Fin 2 → ℕ) = fun _ => 0 := by
    funext a; match a with | ⟨0, _⟩ => rfl | ⟨1, _⟩ => rfl
  unfold out0_A_2
  rw [View.read_writes_eq_canon _ _ _ (cover0_A_2 c i arg1 harg1 arg2 harg2 arg3 harg3 x0 x1)]
  unfold kernelRun0_A
  dsimp only
  rw [View.canon_unit_zero hz]
  simp only [View.readAt_eq_ld, harg1.read_unread, View.ld_unit_zero (S := S512x128) hz]
  rw [Lane.pay3_apply]
  refine Finset.sum_congr rfl fun l _ => ?_
  have ht : Scf.trips (0#32) (Scalar.addi 0#32 64#32) 1#32 = 64 := by decide
  rw [ht, st_apply c i arg1 harg1 arg2 harg2 arg3 harg3 x0 x1 64 (le_refl _) p l]
  rfl

end Cert.GatherSum.Body

end
-- ==== Proof.Blocks.lean ====
/-
  From the 16 row blocks to the whole output column.

  Grid point `t` works on rows `512 t … 512 t + 511`: its index block is those rows of the padded index array
  (all 128 lanes), its data block those rows of the data (all 8192 columns), and the column block it writes back is
  those rows of the output. Row `r = 512 t + p` of the output therefore holds the sum over the 128 lanes `l` of the
  contribution of the padded index word at `(r, l)` to the data's row `r` — one function of the two arrays, of
  which every block is the restriction; the 16 blocks cover the column.
-/
import proofs.«406688_j89146341196441_3_alg».proof.Proof.Gen.KernelIdeal.Frame
import proofs.«406688_j89146341196441_3_alg».proof.Proof.Body

set_option maxRecDepth 16384

noncomputable section

namespace Cert.GatherSum.Blocks

open Idealize.ShloMosaic Idealize.ShloMosaic.ValueIdx Idealize.ShloMosaic.TcCoe Idealize.SL.Sem
open Cert.KernelIdeal Cert.KernelIdeal.Gen Cert.GatherSum

variable (m : (ℓ : Loc nD τ sig) → Buf (Elt Ideal) ℓ) (ρ : Dev nD → PrngReg)

/-- The padded index array and the data array as the region finds them. -/
abbrev idxArr (c : Dev nD) : Vec Ideal S8192x128 .i32 := V m c main_v9
abbrev dataArr (c : Dev nD) : Vec Ideal S8192x8192 .f32 := V m c main_arg0

/-- The output column as one function of the two arrays: row `r` is the sum over the 128 lanes of the lane's word's
    contribution to the data's row `r`. -/
def outArr (c : Dev nD) : Vec Ideal S8192x1 .f32 := fun y =>
  ∑ l : Fin 128, term (fun q => dataArr m c (ix2 (y 0) q)) (idxArr m c (ix2 (y 0) l))

theorem hN : cfg0.N = 16 := N_0

/-- Every window's block index at point `t` is `(t, 0)`. -/
theorem idx_facts : ∀ t : Fin cfg0.N,
    win0_0.index t 0 = t.val ∧ win0_0.index t 1 = 0 ∧ win0_1.index t 0 = t.val ∧ win0_1.index t 1 = 0
      ∧ win0_2.index t 0 = t.val ∧ win0_2.index t 1 = 0 :=
  (by decide +kernel : ∀ t : Fin grid0.N, _)

/-- The index block at point `t`: rows `512 t + p` of the padded index array. -/
theorem iblk0_apply (c : Dev nD) (t : Fin cfg0.N) (p : Fin 512) (l : Fin 128) :
    (iblk m c 0 t : Vec Ideal S512x128 .i32) (ix2 p l)
      = idxArr m c (ix2 ⟨512 * t.val + p.val, by have := t.isLt; have := hN; have := p.isLt; omega⟩ l) := by
  unfold iblk
  rw [View.read_apply]
  show V m c main_v9 _ = V m c main_v9 _
  congr 1
  funext a
  apply Fin.ext
  match a with
  | ⟨0, _⟩ => show win0_0.index t 0 * 512 + 1 * p.val = 512 * t.val + p.val; rw [(idx_facts t).1]; omega
  | ⟨1, _⟩ => show win0_0.index t 1 * 128 + 1 * l.val = l.val; rw [(idx_facts t).2.1]; omega

/-- The data block at point `t`: rows `512 t + p` of the data. -/
theorem iblk1_apply (c : Dev nD) (t : Fin cfg0.N) (p : Fin 512) (q : Fin 8192) :
    (iblk m c 1 t : Vec Ideal S512x8192 .f32) (ix2 p q)
      = dataArr m c (ix2 ⟨512 * t.val + p.val, by have := t.isLt; have := hN; have := p.isLt; omega⟩ q) := by
  unfold iblk
  rw [View.read_apply]
  show V m c main_arg0 _ = V m c main_arg0 _
  congr 1
  funext a
  apply Fin.ext
  match a with
  | ⟨0, _⟩ => show win0_1.index t 0 * 512 + 1 * p.val = 512 * t.val + p.val; rw [(idx_facts t).2.2.1]; omega
  | ⟨1, _⟩ => show win0_1.index t 1 * 8192 + 1 * q.val = q.val; rw [(idx_facts t).2.2.2.1]; omega

/-- What point `t` leaves in the output block, row by row: the output column's rows `512 t + p`. -/
theorem outsAt_apply (c : Dev nD) (t : Fin cfg0.N) (p : Fin 512) :
    outsAt0 m c t (ix2 p (0 : Fin 1))
      = outArr m c (ix2 ⟨512 * t.val + p.val, by have := t.isLt; have := hN; have := p.isLt; omega⟩ (0 : Fin 1)) := by
  unfold outsAt0
  rw [Body.out0_apply]
  unfold outArr
  refine Finset.sum_congr rfl fun l _ => ?_
  rw [iblk0_apply]
  refine congrArg (fun f => term f _) (funext fun q => ?_)
  rw [iblk1_apply]

/-- The block point `t` writes back is the output column read through the block's rectangle. -/
theorem flushed_eq (c : Dev nD) (t : Fin cfg0.N) (_hf : (cfg0.win 2).flush t = true) :
    (dats m 0 c).flushed 2 t = ((cfg0.win 2).blk t).view.read (Elt Ideal) (outArr m c) := by
  show (cfg0.win 2).cut (grid0.coords t) ((dats m 0 c).after 2 t) = _
  rw [after0_2]
  refine funext fun y => ?_
  rw [View.read_apply]
  show outsAt0 m c t y = outArr m c (((cfg0.win 2).blk t).view.emb y)
  obtain ⟨p, q, rfl⟩ : ∃ (p : Fin 512) (q : Fin 1), y = ix2 p q := ⟨y 0, y 1, eq_ix2 y⟩
  obtain rfl : q = 0 := Subsingleton.elim _ _
  rw [outsAt_apply]
  refine congrArg (outArr m c) (funext fun a => Fin.ext ?_)
  match a with
  | ⟨0, _⟩ => show 512 * t.val + p.val = win0_2.index t 0 * 512 + 1 * p.val; rw [(idx_facts t).2.2.2.2.1]; omega
  | ⟨1, _⟩ => show 0 = win0_2.index t 1 * 1 + 1 * 0; rw [(idx_facts t).2.2.2.2.2]

/-- The output array after the region is the output column: the 16 blocks cover it, block `r / 512` holding row `r`. -/
theorem final (c : Dev nD) : (dats m 0 c).arrAt 2 cfg0.N = outArr m c :=
  (dats m 0 c).arrAt_eq_of_cover 2 (outArr m c) (flushed_eq m c) fun i => by
    have h0 : (i 0 : Nat) < 8192 := (i 0).isLt
    have h1 : (i 1 : Nat) < 1 := (i 1).isLt
    have hq : (i 0 : Nat) / 512 < grid0.N := by rw [N_0]; omega
    refine ⟨⟨(i 0 : Nat) / 512, hq⟩, flush0_2 _, ?_⟩
    show i ∈ ((View.whole main_v10).slice (win0_2.rect ⟨(i 0 : Nat) / 512, hq⟩)).set
    rw [View.set_slice_whole, Rect.mem_set_unit]
    intro a
    match a with
    | ⟨0, _⟩ =>
      show win0_2.index _ 0 * 512 ≤ (i 0 : Nat) ∧ (i 0 : Nat) < win0_2.index _ 0 * 512 + 512
      rw [(idx_facts _).2.2.2.2.1]
      show (i 0 : Nat) / 512 * 512 ≤ (i 0 : Nat) ∧ (i 0 : Nat) < (i 0 : Nat) / 512 * 512 + 512
      omega
    | ⟨1, _⟩ =>
      show win0_2.index _ 1 * 1 ≤ (i 1 : Nat) ∧ (i 1 : Nat) < win0_2.index _ 1 * 1 + 1
      rw [(idx_facts _).2.2.2.2.2]
      omega

end Cert.GatherSum.Blocks

end
-- ==== Proof.Pad.lean ====
/-
  The padded index array.

  Before the region the host replaces every index word that does not name a column by −1 and pads each row of 17
  words to 128 lanes with −1. Lane `l < 17` of row `r` is the row's `l`-th word if it is valid and −1 if not;
  lanes 17 to 127 are −1. The word −1 contributes nothing (it is not below 8192 read unsigned), and an invalid
  word contributed nothing to begin with, so the sum over the 128 lanes of the contributions of the padded row is
  the sum over the row's 17 words: the neighbour sum.
-/
import proofs.«406688_j89146341196441_3_alg».proof.Proof.Spec
import proofs.«406688_j89146341196441_3_alg».proof.Proof.Words
import Idealize.ShloMosaic.Lib.StableHlo.Predicate
import Idealize.ShloMosaic.Lib.KernelVsHost

noncomputable section

namespace Cert.GatherSum.Pad

open Idealize.ShloMosaic Idealize.ShloMosaic.ValueIdx Cert.GatherSum

abbrev Spad : Shape := ⟨2, ![8192, 128]⟩

/-- The host's preparation of the index array, as one function: validity mask, the two selects, the pad. -/
def padded (hp : Sidx.Pads (![0, 0] : Fin 2 → Nat) ![0, 111] ![0, 0] Spad) (h0 : 0 < Sscalar.numel)
    (hb : Sscalar.BroadcastsInDim Sidx (![] : Fin 0 → Fin Sidx.rank)) (idx : IVec Sidx 32) : IVec Spad 32 :=
  pad Spad ![0, 0] ![0, 111] ![0, 0]
    (select (andi (cmpi .sge idx (broadcastInDim Sidx ![] hb (constantI Sscalar 32 0#32)))
        (cmpi .slt idx (broadcastInDim Sidx ![] hb (constantI Sscalar 32 8192#32))))
      (select (andi (cmpi .sge idx (broadcastInDim Sidx ![] hb (constantI Sscalar 32 0#32)))
          (cmpi .slt idx (broadcastInDim Sidx ![] hb (constantI Sscalar 32 8192#32))))
        idx (broadcastInDim Sidx ![] hb (constantI Sscalar 32 0#32)))
      (broadcastInDim Sidx ![] hb (constantI Sscalar 32 4294967295#32)))
    (id (constantI Sscalar 32 4294967295#32)) hp h0

variable (hp : Sidx.Pads (![0, 0] : Fin 2 → Nat) ![0, 111] ![0, 0] Spad) (h0 : 0 < Sscalar.numel)
  (hb : Sscalar.BroadcastsInDim Sidx (![] : Fin 0 → Fin Sidx.rank))

/-- A lane below 17 holds the row's word when it is valid and −1 when it is not. -/
theorem padded_lo (idx : IVec Sidx 32) (r : Fin 8192) (k : Fin 17) :
    padded hp h0 hb idx (ix2 r (Fin.castAdd 111 k))
      = Scalar.select (IntOp.andi (IntOp.cmpi .sge (idx (ix2 r k)) 0#32) (IntOp.cmpi .slt (idx (ix2 r k)) 8192#32))
          (Scalar.select (IntOp.andi (IntOp.cmpi .sge (idx (ix2 r k)) 0#32) (IntOp.cmpi .slt (idx (ix2 r k)) 8192#32))
            (idx (ix2 r k)) 0#32) 4294967295#32 := by
  unfold padded
  refine (pad_apply_of_inside _ _ _ _ _ hp h0 (ix2 r (Fin.castAdd 111 k)) (ix2 r k) (by
    intro a
    match a with
    | ⟨0, _⟩ => show r.val = 0 + r.val * (0 + 1); omega
    | ⟨1, _⟩ => show k.val = 0 + k.val * (0 + 1); omega)).trans ?_
  simp only [select_apply, StableHlo.Predicate.bcast_scalar hb h0]
  rfl

/-- A lane from 17 on holds −1. -/
theorem padded_hi (idx : IVec Sidx 32) (r : Fin 8192) (j : Fin 111) :
    padded hp h0 hb idx (ix2 r (Fin.natAdd 17 j)) = 4294967295#32 := by
  unfold padded
  refine (pad_apply_of_not_inside _ _ _ _ _ hp h0 (ix2 r (Fin.natAdd 17 j)) (1 : Fin 2) (by
    intro hin
    have e : (17 + j.val - 0) / (0 + 1) < 17 := hin.2.2
    omega)).trans ?_
  rfl

/-- The contribution of a lane below 17 is the word's own: a valid word is kept, and an invalid word, replaced by −1,
    contributed nothing either way. -/
theorem term_select (row : Fin 8192 → EReal) (w : BitVec 32) :
    term row (Scalar.select (IntOp.andi (IntOp.cmpi .sge w 0#32) (IntOp.cmpi .slt w 8192#32))
      (Scalar.select (IntOp.andi (IntOp.cmpi .sge w 0#32) (IntOp.cmpi .slt w 8192#32)) w 0#32) 4294967295#32)
      = term row w := by
  by_cases hv : IntOp.andi (IntOp.cmpi .sge w 0#32) (IntOp.cmpi .slt w 8192#32) = 1#1
  · rw [hv, select_one, select_one]
  · have hw : ¬ w.toNat < 8192 := fun h => hv ((Words.valid_iff w).2 h)
    rw [eq_zero_of_ne_one hv, select_zero]
    unfold term
    rw [if_neg Words.neg_one_toNat, if_neg hw]

/-- The sum over the 128 lanes of the padded row's contributions is the sum over the row's 17 words. -/
theorem sum_padded (row : Fin 8192 → EReal) (idx : IVec Sidx 32) (r : Fin 8192) :
    ∑ l : Fin 128, term row (padded hp h0 hb idx (ix2 r l)) = ∑ k : Fin 17, term row (idx (ix2 r k)) := by
  rw [show (∑ l : Fin 128, term row (padded hp h0 hb idx (ix2 r l)))
      = ∑ l : Fin (17 + 111), term row (padded hp h0 hb idx (ix2 r l)) from rfl, Fin.sum_univ_add]
  have hhi : ∑ j : Fin 111, term row (padded hp h0 hb idx (ix2 r (Fin.natAdd 17 j))) = 0 :=
    Finset.sum_eq_zero fun j _ => by
      rw [padded_hi]; unfold term; rw [if_neg Words.neg_one_toNat]
  rw [hhi, add_zero]
  exact Finset.sum_congr rfl fun k _ => by rw [padded_lo, term_select]

end Cert.GatherSum.Pad

end
-- ==== Proof.Host.lean ====
/-
  The host operations around the region, and the idealized kernel's run read as values.

  Before the region the host builds the padded index array from the index argument (validity mask, two selects, pad);
  after it the host reshapes the output column to a vector — the neighbour sums — and applies the softmax to it. With
  the output column known as one function of the padded array and the data, row `r` of the first stage is the sum over
  the 128 padded lanes of the lanes' contributions, which is the sum over the row's 17 index words: `nsum`.
-/
import proofs.«406688_j89146341196441_3_alg».proof.Proof.Gen.KernelIdeal.Frame
import proofs.«406688_j89146341196441_3_alg».proof.Proof.Blocks
import proofs.«406688_j89146341196441_3_alg».proof.Proof.Pad
import Idealize.ShloMosaic.Lib.StableHlo.Run

set_option maxRecDepth 16384

noncomputable section

namespace Cert.GatherSum.Host

open Idealize.ShloMosaic Idealize.ShloMosaic.ValueIdx Idealize.ShloMosaic.TcCoe Idealize.ShloMosaic.Tactic
open Idealize.ShloMosaic.StableHlo Idealize.SL Idealize.SL.Sem
open Cert.KernelIdeal Cert.KernelIdeal.Gen Cert.GatherSum

variable (m : (ℓ : Loc nD τ sig) → Buf (Elt Ideal) ℓ) (ρ : Dev nD → PrngReg)

/-- The padded index array the region finds is the host's preparation of the index argument. -/
theorem v9_eq (c : Dev nD) :
    (V m c main_v9 : S8192x128.Idx → BitVec 32)
      = Pad.padded Gen.pads_S8192x17_S8192x128_000_01110 Gen.h_S_ Gen.bcast_S_S8192x17
          (m ((c : Thread nD τ).loc main_arg1)) := by
  dsimp only [V, V0]
  simp only [hostOps0, hostOps0_1, hostOps0_2, hostOps0_3, hostOps0_4, hostOps0_5, List.flatten_cons, List.flatten_nil,
    List.append_nil, List.cons_append, List.nil_append]
  after_results
  simp only [TRef.ofBuf, TRef.toBuf, cast_eq]
  rfl

/-- The neighbour sums as the kernel's program leaves them: the output column reshaped to a vector. -/
def rows (c : Dev nD) : FVec Ideal S8192 .f32 := shapeCast S8192 (Blocks.outArr m c) Gen.shapeCasts_S8192x1_S8192

/-- After the region the output array holds the output column. -/
theorem out_arr (c : Dev nD) :
    Pipeline.withArrays (cfgs 0).spec c (V0 m c) (fun w => (dats m 0 c).arrAt w (cfgs 0).N) (Proc.devRef .tc main_v10)
      = Blocks.outArr m c :=
  (Pipeline.withArrays_arr spec0 launch0.win.arr_inj c _ _ 2).trans (Blocks.final m c)

/-- The first result after the tail: the reshaped output column. -/
theorem tail_rows (c : Dev nD) :
    Pipeline.afterTail₀ cfgs (dats m) 0 (V0 m) [hostOps1] c main_v11 = rows m c := by
  unfold Pipeline.afterTail₀
  show StableHlo.after hostOps1 _ (Proc.devRef .tc main_v11) = _
  after_results
  rw [out_arr]
  rfl

/-- The second result after the tail: the softmax of the reshaped output column. -/
theorem tail_soft (c : Dev nD) :
    Pipeline.afterTail₀ cfgs (dats m) 0 (V0 m) [hostOps1] c main_v21
      = softmaxTail Gen.reducesTo_S8192_S_d0 Gen.h_S_ Gen.bcast_S_S1 Gen.bcast_S1_S8192_0 (rows m c) := by
  unfold Pipeline.afterTail₀
  show StableHlo.after hostOps1 _ (Proc.devRef .tc main_v21) = _
  after_results
  rw [out_arr]
  rfl

/-- The reshaped output column is the neighbour sum of the two arguments. -/
theorem rows_eq (c : Dev nD) :
    rows m c = nsum (m ((c : Thread nD τ).loc main_arg0)) (m ((c : Thread nD τ).loc main_arg1)) := by
  funext j
  unfold rows
  refine (shapeCast_apply (Blocks.outArr m c) Gen.shapeCasts_S8192x1_S8192 j (ix2 (j 0) (0 : Fin 1)) (by
    rw [Shape.rowMajor_val_one, Shape.rowMajor_val_two]; simp)).trans ?_
  unfold Blocks.outArr nsum
  show (∑ l : Fin 128, term (fun q => Blocks.dataArr m c (ix2 (j 0) q)) (Blocks.idxArr m c (ix2 (j 0) l))) = _
  rw [show Blocks.idxArr m c = Pad.padded Gen.pads_S8192x17_S8192x128_000_01110 Gen.h_S_ Gen.bcast_S_S8192x17
        (m ((c : Thread nD τ).loc main_arg1)) from v9_eq m c,
    show Blocks.dataArr m c = m ((c : Thread nD τ).loc main_arg0) from V_main_arg0 m c]
  exact Pad.sum_padded _ _ _ _ _ (j 0)

/-- THE RUN of the idealized kernel, read: the softmax result, the neighbour sums, the arguments unchanged. -/
theorem run : θ_run defs (onTc (τ := τ) (main (F := Ideal))) ⟨m, fun _ => 0, ρ⟩ fun r => ∀ c : Dev nD,
      r.2.mem ((c.tc : Thread nD τ).loc main_v21)
        = softmaxTail Gen.reducesTo_S8192_S_d0 Gen.h_S_ Gen.bcast_S_S1 Gen.bcast_S1_S8192_0
            (nsum (m ((c.tc : Thread nD τ).loc main_arg0)) (m ((c.tc : Thread nD τ).loc main_arg1)))
      ∧ r.2.mem ((c.tc : Thread nD τ).loc main_v11)
        = nsum (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      ((h c).2 main_v21 (Pipeline.mem_restRefs_of main_v21 (by decide) (by decide))).trans
        ((tail_soft m c).trans (congrArg _ (rows_eq m c))),
      ((h c).2 main_v11 (Pipeline.mem_restRefs_of main_v11 (by decide) (by decide))).trans
        ((tail_rows m c).trans (rows_eq m c)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.GatherSum.Host

end
-- ==== Proof.RefValue.lean ====
/-
  The reference program read as the neighbour sum.

  The reference first wraps a negative index word by adding 8192, then keeps the gathered entry where the wrapped
  word lies in [0, 8191] and puts a filler elsewhere, and sums each row's 17 slots from zero. Where every index
  word already names a column (it is in [0, 8192) read unsigned: the precondition's second conjunct), no word is
  wrapped, the range test holds at every slot, the gather's clamp is the identity, and row `r` is
  `Σ_k data[r, idx[r,k]]`: the specification's `nsum`. The softmax stage is the shared tail of that stage.
-/
import proofs.«406688_j89146341196441_3_alg».proof.Proof.Spec
import proofs.«406688_j89146341196441_3_alg».proof.Proof.RefRead
import proofs.«406688_j89146341196441_3_alg».proof.Pre_finite_inputs
import proofs.«406688_j89146341196441_3_alg».proof.Proof.Gen.Pre_finite_inputs
import Idealize.ShloMosaic.Lib.StableHlo.Predicate
import Idealize.ShloMosaic.Lib.ReduceAll

noncomputable section

namespace Cert.GatherSum.Ref

open Idealize.ShloMosaic Idealize.ShloMosaic.ValueIdx Cert.GatherSum
open Cert.ReferenceIdeal Cert.ReferenceIdeal.Gen Cert.ReferenceIdeal.Read

/-! ## Words -/

/-- A 32-bit word that is non-negative and below 8192 read signed is below 8192 read unsigned. -/
private theorem toNat_lt_of_signed (w : BitVec 32) (h0 : (0#32 : BitVec 32).toInt ≤ w.toInt)
    (h1 : w.toInt < (8192#32 : BitVec 32).toInt) : w.toNat < 8192 := by
  have e0 : (0#32 : BitVec 32).toInt = 0 := by decide
  have e1 : (8192#32 : BitVec 32).toInt = 8192 := by decide
  rw [e0] at h0; rw [e1] at h1
  rw [BitVec.toInt_eq_toNat_cond] at h0 h1
  have := w.isLt
  split at h0 <;> omega

/-- A word below 8192 read unsigned reads the same signed. -/
private theorem toInt_of_lt (w : BitVec 32) (hw : w.toNat < 8192) : w.toInt = w.toNat :=
  StableHlo.Predicate.toInt_eq_toNat_of_lt (by omega)

/-- A fold of one-bit conjunctions that starts at 1 and meets only 1s ends at 1. -/
private theorem foldl_andi_one {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a, show IntOp.andi (1#1 : BitVec 1) 1#1 = 1#1 from by decide]
    exact ih

/-- The precondition's second conjunct, decoded: every index word is in [0, 8192) read unsigned. -/
theorem inrange_of_pre (data : FVec Ideal Sdata .f32) (idx : IVec Sidx 32)
    (h : Cert.Pre_finite_inputs.fn (F := Ideal) data idx = fun _ => 1#1) :
    ∀ i : Sidx.Idx, (idx i).toNat < 8192 := by
  intro i
  -- the scalar result is the conjunction of the two reductions; the second is over the index words
  have h0 := congrFun h ValueIdx.ix0
  dsimp only [Cert.Pre_finite_inputs.fn] at h0
  obtain ⟨_, h2⟩ := IntOp.andi_eq_one.1 h0
  haveI : Subsingleton (Cert.Pre_finite_inputs.S_).Idx := ⟨fun a b => funext fun d => d.elim0⟩
  -- a conjunction over all slots that is 1 is 1 at slot i: 0 ≤ w and w < 8192, both read signed
  have h3 := Host.reduce_andi_all _ _ _ _ _ h2 i
  obtain ⟨ha, hb⟩ := IntOp.andi_eq_one.1 h3
  exact toNat_lt_of_signed (idx i) (IntOp.cmpi_sge.1 ha) (IntOp.cmpi_slt.1 hb)

/-! ## The reference's index stages at an in-range word -/

/-- An in-range word is not negative read signed, so the wrap stage leaves it as it is. -/
private theorem wrap_id (idx : IVec Sidx 32) (i : Sidx.Idx) (hw : (idx i).toNat < 8192) :
    val_main_call0_v4 (F := Ideal) idx i = idx i := by
  have hc : IntOp.cmpi .slt (idx i) 0#32 = 0#1 := by
    refine eq_zero_of_ne_one fun h => ?_
    have h1 := IntOp.cmpi_slt.1 h
    rw [toInt_of_lt _ hw] at h1
    have e0 : (0#32 : BitVec 32).toInt = 0 := by decide
    omega
  show Scalar.select (IntOp.cmpi .slt (idx i) 0#32) _ (idx i) = idx i
  rw [hc, select_zero]

/-- The start-index array at `[r, k, 0]` is the index word at `[r, k]`. -/
private theorem start_read (idx : IVec Sidx 32) (hidx : ∀ i : Sidx.Idx, (idx i).toNat < 8192)
    (i' : S8192x17x1.Idx) : val_main_call0_v5 (F := Ideal) idx i' = idx (idx_main_call0_v5 i') := by
  rw [val_main_call0_v5_apply]
  exact wrap_id idx _ (hidx _)

/-- The flattened position of `[r, k, 0]` in the start-index array is `[r, k]`. -/
private theorem idx_v5_ix3 (r : Fin 8192) (k : Fin 17) : idx_main_call0_v5 (ix3 r k (0 : Fin 1)) = ix2 r k := by
  funext a
  match a with
  | ⟨0, _⟩ => exact Fin.ext (by show ((r.val * 17 + k.val) * 1 + 0) / 17 = r.val; have := k.isLt; omega)
  | ⟨1, _⟩ => exact Fin.ext (by show ((r.val * 17 + k.val) * 1 + 0) % 17 = k.val; have := k.isLt; omega)

/-- The range test `0 ≤ w ≤ 8191` holds at every slot. -/
private theorem ok_bit (idx : IVec Sidx 32) (hidx : ∀ i : Sidx.Idx, (idx i).toNat < 8192) (i' : S8192x17x1.Idx) :
    val_main_call0_v11 (F := Ideal) idx i' = 1#1 := by
  have hw := hidx (idx_main_call0_v5 i')
  show IntOp.andi (IntOp.cmpi .sge (val_main_call0_v5 (F := Ideal) idx i') 0#32)
    (IntOp.cmpi .sle (val_main_call0_v5 (F := Ideal) idx i') 8191#32) = 1#1
  rw [start_read idx hidx i']
  have e0 : (0#32 : BitVec 32).toInt = 0 := by decide
  have e1 : (8191#32 : BitVec 32).toInt = 8191 := by decide
  refine IntOp.andi_eq_one.2 ⟨IntOp.cmpi_sge.2 ?_, IntOp.cmpi_sle.2 ?_⟩
  · rw [toInt_of_lt _ hw, e0]; omega
  · rw [toInt_of_lt _ hw, e1]; omega

/-- So its conjunction over the unit axis is 1 at every slot. -/
private theorem ok_all (idx : IVec Sidx 32) (hidx : ∀ i : Sidx.Idx, (idx i).toNat < 8192) (j : S8192x17.Idx) :
    val_main_call0_v12 (F := Ideal) idx j = 1#1 := by
  unfold val_main_call0_v12
  rw [Host.reduce_eq_foldl]
  exact foldl_andi_one _ (ok_bit idx hidx) _

/-! ## The gather at a start index that names a column -/

/-- The gather batches over the rows and collapses the column axis: result `[r, k]` is row `r` of the operand at the
    column the start index `[r, k, 0]` names; read signed and clamped into `[0, 8191]`, a word below 8192 is itself. -/
private theorem gather_read {α : Type} (data : S8192x8192.Idx → α) (st : IVec S8192x17x1 32) (r : Fin 8192) (k : Fin 17)
    (hw : (st (ix3 r k (0 : Fin 1))).toNat < 8192) :
    Host.gather gather_S8192x8192_S8192x17x1_S8192x17_n_1_0_0_1_2_11 data st (ix2 r k)
      = data (ix2 r ⟨(st (ix3 r k (0 : Fin 1))).toNat, hw⟩) := by
  unfold Host.gather
  refine congrArg data (funext fun a => Fin.ext ?_)
  match a with
  | ⟨0, _⟩ =>
    -- the row axis is the batching axis: no start, no offset, the result's row coordinate
    show GatherDims.start _ (ix2 r k) st 0 + GatherDims.batchCoord _ (ix2 r k) 0 + GatherDims.offCoord _ (ix2 r k) 0 = r.val
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | ⟨1, _⟩ =>
    -- the column axis is collapsed and start-indexed: the clamped start, nothing else
    show GatherDims.start _ (ix2 r k) st 1 + GatherDims.batchCoord _ (ix2 r k) 1 + GatherDims.offCoord _ (ix2 r k) 1
      = (st (ix3 r k (0 : Fin 1))).toNat
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    have hm : (1 : Fin S8192x8192.rank) ∈ (gather_S8192x8192_S8192x17x1_S8192x17_n_1_0_0_1_2_11).startIndexMap :=
      List.mem_singleton.mpr rfl
    rw [dif_pos hm]
    have hsi : GatherDims.siIdx gather_S8192x8192_S8192x17x1_S8192x17_n_1_0_0_1_2_11 (ix2 r k)
        ⟨List.idxOf (1 : Fin S8192x8192.rank) (gather_S8192x8192_S8192x17x1_S8192x17_n_1_0_0_1_2_11).startIndexMap,
          List.idxOf_lt_length_iff.2 hm⟩ = ix3 r k (0 : Fin 1) := by
      funext b; refine Fin.ext ?_
      match b with
      | ⟨0, _⟩ => rfl
      | ⟨1, _⟩ => rfl
      | ⟨2, _⟩ => rfl
    rw [hsi, toInt_of_lt _ hw]
    show min (st (ix3 r k (0 : Fin 1))).toNat (8192 - 1) = (st (ix3 r k (0 : Fin 1))).toNat
    omega

/-! ## One slot, one row, the softmax -/

/-- Slot `[r, k]` of the masked gather is the data entry of row `r` at the column the slot's word names. -/
private theorem slot_read (data : FVec Ideal Sdata .f32) (idx : IVec Sidx 32) (hidx : ∀ i : Sidx.Idx, (idx i).toNat < 8192)
    (r : Fin 8192) (k : Fin 17) :
    val_main_v0 (F := Ideal) data idx (ix2 r k) = data (ix2 r ⟨(idx (ix2 r k)).toNat, hidx _⟩) := by
  have e5 : val_main_call0_v5 (F := Ideal) idx (ix3 r k (0 : Fin 1)) = idx (ix2 r k) := by
    rw [start_read idx hidx, idx_v5_ix3]
  have hw : (val_main_call0_v5 (F := Ideal) idx (ix3 r k (0 : Fin 1))).toNat < 8192 := by rw [e5]; exact hidx _
  rw [val_main_v0_apply, ok_all idx hidx, select_one]
  unfold val_main_call0_v13
  rw [gather_read data (val_main_call0_v5 (F := Ideal) idx) r k hw]
  exact congrArg data (congrArg (ix2 r) (Fin.ext (congrArg BitVec.toNat e5)))

/-- With every index word in range, the reference's row-sum stage is the neighbour sum. -/
theorem ref_rows (data : FVec Ideal Sdata .f32) (idx : IVec Sidx 32) (hidx : ∀ i : Sidx.Idx, (idx i).toNat < 8192) :
    Cert.ReferenceIdeal.Read.val_main_v1 (F := Ideal) data idx = nsum data idx := by
  funext j
  obtain ⟨r, rfl⟩ : ∃ r : Fin 8192, j = ix1 r := ⟨j 0, eq_ix1 j⟩
  rw [val_main_v1_apply]
  have hz : val_main_cst (F := Ideal) (Shape.Idx.first h_S_) = 0 := Ideal.ofBits_zero_f32
  rw [hz, zero_add]
  show _ = ∑ k : Fin 17, term (fun q => data (ix2 r q)) (idx (ix2 r k))
  refine Finset.sum_congr rfl fun k _ => ?_
  have hi : idx_main_v1 (ix1 r) k = ix2 r k := by
    funext a
    match a with
    | ⟨0, _⟩ => rfl
    | ⟨1, _⟩ => rfl
  rw [hi, slot_read data idx hidx r k]
  unfold term
  rw [if_pos (hidx _)]
  refine congrArg data (congrArg (ix2 r) (Fin.ext ?_))
  show (idx (ix2 r k)).toNat = (idx (ix2 r k)).toNat % 8192
  exact (Nat.mod_eq_of_lt (hidx _)).symm

/-- The reference's softmax stage is the shared tail applied to its row-sum stage. -/
theorem ref_soft (data : FVec Ideal Sdata .f32) (idx : IVec Sidx 32) :
    Cert.ReferenceIdeal.Read.val_main_v11 (F := Ideal) data idx
      = softmaxTail Cert.ReferenceIdeal.Gen.reducesTo_S8192_S_d0 Cert.ReferenceIdeal.Gen.h_S_
          Cert.ReferenceIdeal.Gen.bcast_S_S1 Cert.ReferenceIdeal.Gen.bcast_S1_S8192_0
          (Cert.ReferenceIdeal.Read.val_main_v1 (F := Ideal) data idx) := by
  unfold val_main_v11 val_main_v10 val_main_v9 val_main_v8 val_main_v7 val_main_v6 val_main_v5 val_main_v4 val_main_v3
    val_main_v2 val_main_cst_0 val_main_cst_1 val_main_cst_2 softmaxTail
  rfl

end Cert.GatherSum.Ref

end
-- ==== Proof.lean ====
/-
  The gather-and-sum layer with its softmax: the kernel against its jnp reference, over the extended reals.

  Both programs return, for each of 8192 rows `r`, the neighbour sum `A[r] = Σ_k data[r, idx[r,k]]` over the row's
  17 index words, and the softmax of `A`. The statement's precondition says the data are finite and every index
  word names a column, `0 ≤ idx < 8192` (outside that range the reference wraps a negative word and fills past the
  end, while the kernel adds nothing: the two differ there).

  The kernel: the host marks each word valid or replaces it by −1 and pads each row to 128 lanes with −1; the region,
  on 16 blocks of 512 rows, splits a lane's word into a block id `w >> 7` and an offset `w & 127`, walks the 64
  blocks of 128 columns, gathers the offset's entry along the lanes and keeps it where the block id is the trip's,
  adding lane-wise; one lane sum ends the block. So a lane contributes `data[r, w]` exactly when `w < 8192` read
  unsigned, and −1 contributes nothing: the row is the neighbour sum, for every index argument. The reference, where
  every word is in range, wraps nothing, passes its range test and its gather's clamp is the identity: the same sum.
  The softmax is one function (`softmaxTail`) of that vector in both programs. Only commutativity and associativity
  of the extended reals' addition and `0 + x = x` are used: finiteness of the data is never needed.

  The frames of the two kernel programs are the generated frame certificates; the reference's frame is its run with
  the results dropped; the idealization rewrote nothing, so `preserves` is trivial.
-/
import proofs.«406688_j89146341196441_3_alg».proof.Defs
import proofs.«406688_j89146341196441_3_alg».proof.Proof.Gen.Kernel
import proofs.«406688_j89146341196441_3_alg».proof.Proof.Gen.Kernel.Skeleton
import proofs.«406688_j89146341196441_3_alg».proof.Proof.Gen.Kernel.Loops
import proofs.«406688_j89146341196441_3_alg».proof.Proof.Gen.Kernel.Launch
import proofs.«406688_j89146341196441_3_alg».proof.Proof.Gen.Kernel.Points
import proofs.«406688_j89146341196441_3_alg».proof.Proof.Gen.Kernel.Frame
import proofs.«406688_j89146341196441_3_alg».proof.Proof.Gen.KernelIdeal
import proofs.«406688_j89146341196441_3_alg».proof.Proof.Gen.KernelIdeal.Skeleton
import proofs.«406688_j89146341196441_3_alg».proof.Proof.Gen.KernelIdeal.Loops
import proofs.«406688_j89146341196441_3_alg».proof.Proof.Gen.KernelIdeal.Launch
import proofs.«406688_j89146341196441_3_alg».proof.Proof.Gen.KernelIdeal.Points
import proofs.«406688_j89146341196441_3_alg».proof.Proof.Gen.KernelIdeal.Frame
import proofs.«406688_j89146341196441_3_alg».proof.Proof.Gen.ReferenceIdeal
import proofs.«406688_j89146341196441_3_alg».proof.Proof.Gen.Pre_finite_inputs
import proofs.«406688_j89146341196441_3_alg».proof.Proof.Host
import proofs.«406688_j89146341196441_3_alg».proof.Proof.RefValue
import Idealize.ShloMosaic.Adequacy
import Idealize.ShloMosaic.Init

noncomputable section

namespace Cert.Proof

open Idealize.ShloMosaic Idealize.ShloMosaic.TcCoe Idealize.SL.Sem Cert.GatherSum

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the softmax of the neighbour sums and the neighbour sums: the kernel for every index
    argument, the reference where every index word names a column, which the precondition gives. -/
theorem algebraic : Cert.algebraic_KernelIdeal_ReferenceIdeal := by
  intro m ρ m' ρ' hpre hagree
  refine ⟨_, _, Cert.GatherSum.Host.run m ρ, ?_⟩
  refine (θ_run Cert.ReferenceIdeal.defs _ _).mono (fun _ h c => ?_) (Cert.ReferenceIdeal.Value.run (F := Ideal) m' ρ')
  have hin := Cert.GatherSum.Ref.inrange_of_pre _ _ (hpre c)
  have e0 := (hagree c).1
  have e1 := (hagree c).2
  refine ⟨?_, ?_, (h c).2.2.1, (h c).2.2.2⟩
  · refine (h c).1.trans ?_
    rw [Cert.ReferenceIdeal.Read.val_main_v11_eq, e0, e1, Cert.GatherSum.Ref.ref_soft,
      Cert.GatherSum.Ref.ref_rows _ _ hin]
  · refine (h c).2.1.trans ((Cert.ReferenceIdeal.Read.val_main_v1_eq _ _).trans ?_)
    rw [e0, e1, Cert.GatherSum.Ref.ref_rows _ _ hin]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
